-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x64 : Shape := ⟨2, ![4096, 64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S8192x4096 .f32) (main_arg1 : FVec F S8192x4096 .f32) (main_arg2 : FVec F S4096x64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  main_v13
-- ==== Kernel.lean ====
abbrev S8192x4096 : Shape := ⟨2, ![8192, 4096]⟩
abbrev S4096x64 : Shape := ⟨2, ![4096, 64]⟩
abbrev S256x4096 : Shape := ⟨2, ![256, 4096]⟩
abbrev S256x64 : Shape := ⟨2, ![256, 64]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x64, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4096x64, .f32⟩
  | .local _ .vmem, ⟨5, _⟩ => ⟨S256x4096, .f32⟩
  | .local _ .vmem, ⟨6, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  inb_S4096x64_S4096x64_0_0 : ∀ a, (![0, 0] : Fin 2 → Nat) a + S4096x64.size a ≤ S4096x64.size a
  h_S4096x64 : 0 < S4096x64.numel
  dot_S256x4096_S4096x64_S256x64_1_0_0_1_n_n_wf : DotDims.WF S256x4096 S4096x64 S256x64 [1] [0] [0] [1] [] []
  dot_S256x64_S4096x64_S256x4096_1_1_0_0_n_n_wf : DotDims.WF S256x64 S4096x64 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)

variable [Facts₀]

def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x64 : Shape := ⟨2, ![4096, 64]⟩
abbrev S64x4096 : Shape := ⟨2, ![64, 4096]⟩
abbrev S4096x4096 : Shape := ⟨2, ![4096, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x64, .f32⟩
  | .hbm, ⟨3, _⟩ => ⟨S64x4096, .f32⟩
  | .hbm, ⟨4, _⟩ => ⟨S4096x4096, .f32⟩
  | .hbm, ⟨5, _⟩ => ⟨S4096x4096, .i32⟩
  | .hbm, ⟨6, _⟩ => ⟨S4096x4096, .i32⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S8192x4096, .f32⟩
  | .hbm, ⟨15, _⟩ => ⟨S4096x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  transposes_S4096x64_S64x4096_1_0 : S4096x64.Transposes [1, 0] S64x4096
  bcast_S_S4096x4096 : S_.BroadcastsInDim S4096x4096 (![] : Fin 0 → Fin S4096x4096.rank)
  transposes_S4096x4096_S4096x4096_1_0 : S4096x4096.Transposes [1, 0] S4096x4096
  dot_S4096x64_S64x4096_S4096x4096_1_0_0_1_n_n_wf : DotDims.WF S4096x64 S64x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.ProjectionLaw.lean ====
/-
  The algebra behind the low-rank projection, over abstract finite index types.

  Fix one row: `s`, `t : ι → ℝ` are a row of the source and of the target, `w : ι → ρ → ℝ` is the weight
  (`ι` the embedding axis, `ρ` the rank axis), and `P j k = ∑ r, w j r * w k r` is the Gram matrix `W Wᵀ`,
  symmetric by commutativity of the product. The reference forms, at column `q`,
      ∑ k, t k * (δ q k - P q k)  +  ∑ k, s k * P q k,
  and the kernel forms
      t q + ∑ r, (∑ k, (s k - t k) * w k r) * w q r.
  The Kronecker term picks `t q`; what is left on both sides is `∑ k, (s k - t k) * P q k`, once by distributing
  the product over the difference and once by exchanging the two finite sums.

  The same identity is then stated on the extended reals for entries that are real numbers: every sum,
  product and difference of real entries is the coercion of the real one, so the identity is the real one
  under the coercion. Finiteness is used exactly here: distributivity fails at the infinities.
-/
import Idealize.ShloMosaic.PureOps.Ideal

open scoped BigOperators

namespace Cert.ProjectionLaw

/-- The identity over the reals, one row and one column at a time. -/
theorem real_law {ι ρ : Type*} [Fintype ι] [Fintype ρ] [DecidableEq ι] (s t : ι → ℝ) (w : ι → ρ → ℝ) (q : ι) :
    (∑ k, t k * ((if q = k then (1 : ℝ) else 0) - ∑ r, w q r * w k r)) + ∑ k, s k * ∑ r, w q r * w k r
      = t q + ∑ r, (∑ k, (s k - t k) * w k r) * w q r := by
  have h1 : ∑ k, t k * ((if q = k then (1 : ℝ) else 0) - ∑ r, w q r * w k r)
      = t q - ∑ k, t k * ∑ r, w q r * w k r := by
    simp only [mul_sub, Finset.sum_sub_distrib, mul_ite, mul_one, mul_zero, Finset.sum_ite_eq, Finset.mem_univ,
      if_true]
  have h2 : ∑ r, (∑ k, (s k - t k) * w k r) * w q r = ∑ k, (s k - t k) * ∑ r, w q r * w k r := by
    simp only [Finset.sum_mul, Finset.mul_sum]
    rw [Finset.sum_comm]
    exact Finset.sum_congr rfl fun k _ => Finset.sum_congr rfl fun r _ => by ring
  rw [h1, h2]
  simp only [sub_mul, Finset.sum_sub_distrib]
  ring

/-- The coercion of the reals into the extended reals commutes with finite sums. -/
theorem coe_sum {α : Type*} (u : Finset α) (f : α → ℝ) : ((∑ i ∈ u, f i : ℝ) : EReal) = ∑ i ∈ u, (f i : EReal) := by
  classical
  refine Finset.induction_on u (by simp) ?_
  intro a u ha ih
  rw [Finset.sum_insert ha, Finset.sum_insert ha, EReal.coe_add, ih]

/-- The identity on the extended reals, for real entries; `d` is the Kronecker row as the reference computes it. -/
theorem ereal_law {ι ρ : Type*} [Fintype ι] [Fintype ρ] [DecidableEq ι] (s t : ι → ℝ) (w : ι → ρ → ℝ) (q : ι)
    (d : ι → EReal) (hd : ∀ k, d k = ((if q = k then (1 : ℝ) else 0 : ℝ) : EReal)) :
    (∑ k, (t k : EReal) * (d k - ∑ r, (w q r : EReal) * (w k r : EReal)))
        + ∑ k, (s k : EReal) * ∑ r, (w q r : EReal) * (w k r : EReal)
      = (t q : EReal) + ∑ r, (∑ k, ((s k : EReal) - (t k : EReal)) * (w k r : EReal)) * (w q r : EReal) := by
  simp only [hd, ← EReal.coe_mul, ← EReal.coe_sub, ← EReal.coe_add, ← coe_sum]
  exact congrArg _ (real_law s t w q)

end Cert.ProjectionLaw
-- ==== Proof.Spec.lean ====
/-
  The two results as functions of the three argument arrays, index by index, on the extended reals.

  `S`, `T` are the source and target, 8192 rows of 4096 entries; `W` is the 4096 × 64 weight. `gram W j k` is
  entry (j, k) of `W Wᵀ`. The reference's result at (p, q) contracts row p of `T` with column q of the
  transposed complement `I - W Wᵀ`, and row p of `S` with column q of the transposed `W Wᵀ`; after the two
  transposes both contractions run over the SECOND index of the Gram matrix at first index q. The kernel's result
  at (p, q) is `T`'s entry plus the difference row pushed through the rank-64 bottleneck. On real entries the
  two are one function (`Cert.ProjectionLaw.ereal_law`).

  The identity matrix is computed by the reference as a word comparison of a row counter with a column counter,
  converted to a float; `kron` is that expression and `kron_eq` reads it as the Kronecker delta (both counters
  are below 4096, far below the word size, so the comparison of words is the comparison of numbers).
-/
import proofs.«150487_j48773648613447_1_alg».proof.Proof.ProjectionLaw
import Idealize.ShloMosaic.Lib.ValueIdx
import Idealize.ShloMosaic.Lib.StableHlo.Predicate

noncomputable section

open Idealize.ShloMosaic Idealize.ShloMosaic.ValueIdx
open scoped BigOperators

namespace Cert.Spec

/-- An a × b array of extended reals, indexed as the printed programs index their rank-2 buffers. -/
abbrev Mat (a b : Nat) : Type := (⟨2, ![a, b]⟩ : Shape).Idx → EReal

/-- Entry (j, k) of `W Wᵀ`. -/
def gram (W : Mat 4096 64) (j k : Fin 4096) : EReal := ∑ r : Fin 64, W (ix2 j r) * W (ix2 k r)

/-- The identity matrix's entry as the reference computes it: row counter plus zero, compared with the column
    counter as 32-bit words, the one-bit answer read as a float. -/
def kron (q k : Fin 4096) : EReal :=
  FloatOps.uitofp (F := Ideal) .f32 (IntOp.cmpi .eq (IntOp.addi (BitVec.ofNat 32 q.val) 0#32) (BitVec.ofNat 32 k.val))

/-- The reference's result. -/
def refOut (S T : Mat 8192 4096) (W : Mat 4096 64) : Mat 8192 4096 := fun i =>
  (∑ k : Fin 4096, T (ix2 (i 0) k) * (kron (i 1) k - gram W (i 1) k)) + ∑ k : Fin 4096, S (ix2 (i 0) k) * gram W (i 1) k

/-- The kernel's result. -/
def kerOut (S T : Mat 8192 4096) (W : Mat 4096 64) : Mat 8192 4096 := fun i =>
  T i + ∑ r : Fin 64, (∑ k : Fin 4096, (S (ix2 (i 0) k) - T (ix2 (i 0) k)) * W (ix2 k r)) * W (ix2 (i 1) r)

/-- The compared counters are equal as words exactly when they are equal as numbers: `kron` is the Kronecker delta. -/
theorem kron_eq (q k : Fin 4096) : kron q k = ((if q = k then (1 : ℝ) else 0 : ℝ) : EReal) := by
  have hq := q.isLt
  have hk := k.isLt
  unfold kron
  by_cases h : q = k
  · subst h
    rw [if_pos rfl]
    have e : IntOp.cmpi .eq (IntOp.addi (BitVec.ofNat 32 q.val) 0#32) (BitVec.ofNat 32 q.val) = 1#1 :=
      StableHlo.Predicate.cmpi_eq_iff.mpr (by simp [IntOp.addi])
    rw [e]
    show (((1#1 : BitVec 1).toNat : ℝ) : EReal) = _
    simp
  · rw [if_neg h]
    have hne : IntOp.cmpi .eq (IntOp.addi (BitVec.ofNat 32 q.val) 0#32) (BitVec.ofNat 32 k.val) ≠ 1#1 := fun hh => by
      have e := congrArg BitVec.toNat (StableHlo.Predicate.cmpi_eq_iff.mp hh)
      simp only [IntOp.addi, BitVec.toNat_add, BitVec.toNat_ofNat] at e
      exact h (Fin.ext (by omega))
    have e : IntOp.cmpi .eq (IntOp.addi (BitVec.ofNat 32 q.val) 0#32) (BitVec.ofNat 32 k.val) = 0#1 :=
      (by decide : ∀ b : BitVec 1, b ≠ 1#1 → b = 0#1) _ hne
    rw [e]
    show (((0#1 : BitVec 1).toNat : ℝ) : EReal) = _
    simp

/-- On real entries the reference's result is the kernel's. -/
theorem refOut_eq_kerOut (S T : Mat 8192 4096) (W : Mat 4096 64) (hS : ∀ i, ∃ x : ℝ, S i = (x : EReal))
    (hT : ∀ i, ∃ x : ℝ, T i = (x : EReal)) (hW : ∀ i, ∃ x : ℝ, W i = (x : EReal)) : refOut S T W = kerOut S T W := by
  choose s hs using hS
  choose t ht using hT
  choose w hw using hW
  funext i
  obtain ⟨p, q, rfl⟩ : ∃ (p : Fin 8192) (q : Fin 4096), i = ix2 p q := ⟨i 0, i 1, eq_ix2 i⟩
  unfold refOut kerOut gram
  simp only [hs, ht, hw]
  exact Cert.ProjectionLaw.ereal_law (fun k => s (ix2 p k)) (fun k => t (ix2 p k)) (fun k r => w (ix2 k r)) q
    (kron q) (kron_eq q)

end Cert.Spec

end
-- ==== Proof.RefSide.lean ====
/-
  The reference's result, read index by index, is `Cert.Spec.refOut` of the three argument arrays.

  The reference forms the Gram matrix `W Wᵀ` by a product of `W` with its transpose, subtracts it from the identity
  matrix, transposes both, and contracts the target's rows with the first and the source's rows with the second. Read
  at the result's index (p, q) and at a contraction index k, every transposed matrix is read at (q, k): the first
  index of the Gram matrix stays the result's column. The chain below names, for each stage, which entry of its
  operand an entry depends on, and then reads the whole composition at (p, q).
-/
import proofs.«150487_j48773648613447_1_alg».proof.Proof.Gen.ReferenceIdeal.Read
import proofs.«150487_j48773648613447_1_alg».proof.Proof.Spec

noncomputable section

open Idealize.ShloMosaic Idealize.ShloMosaic.ValueIdx
open scoped BigOperators

namespace Cert.RefSide

open Cert.ReferenceIdeal Cert.ReferenceIdeal.Read

/-! ## Which entry of its operand each stage reads -/

/-- Row p of the target, at contraction index k. -/
theorem lidx10 (p : Fin 8192) (q k : Fin 4096) : lidx_main_v10 (ix2 p q) k = ix2 p k :=
  funext fun a => Fin.ext (by match a with | ⟨0, _⟩ => rfl | ⟨1, _⟩ => rfl)
/-- Column q of the transposed complement, at contraction index k. -/
theorem ridx10 (p : Fin 8192) (q k : Fin 4096) : ridx_main_v10 (ix2 p q) k = ix2 k q :=
  funext fun a => Fin.ext (by match a with | ⟨0, _⟩ => rfl | ⟨1, _⟩ => rfl)
/-- The transposed complement at (k, q) is the complement at (q, k). -/
theorem idx9 (q k : Fin 4096) : idx_main_v9 (ix2 k q) = ix2 q k :=
  funext fun a => Fin.ext (by match a with | ⟨0, _⟩ => rfl | ⟨1, _⟩ => rfl)
/-- Row j of the weight, at rank index r. -/
theorem lidx1 (j k : Fin 4096) (r : Fin 64) : lidx_main_v1 (ix2 j k) r = ix2 j r :=
  funext fun a => Fin.ext (by match a with | ⟨0, _⟩ => rfl | ⟨1, _⟩ => rfl)
/-- Column k of the transposed weight, at rank index r. -/
theorem ridx1 (j k : Fin 4096) (r : Fin 64) : ridx_main_v1 (ix2 j k) r = ix2 r k :=
  funext fun a => Fin.ext (by match a with | ⟨0, _⟩ => rfl | ⟨1, _⟩ => rfl)
/-- The transposed weight at (r, k) is the weight at (k, r). -/
theorem idx0 (k : Fin 4096) (r : Fin 64) : idx_main_v0 (ix2 r k) = ix2 k r :=
  funext fun a => Fin.ext (by match a with | ⟨0, _⟩ => rfl | ⟨1, _⟩ => rfl)
/-- Row p of the source, at contraction index k. -/
theorem lidx12 (p : Fin 8192) (q k : Fin 4096) : lidx_main_v12 (ix2 p q) k = ix2 p k :=
  funext fun a => Fin.ext (by match a with | ⟨0, _⟩ => rfl | ⟨1, _⟩ => rfl)
/-- Column q of the transposed Gram matrix, at contraction index k. -/
theorem ridx12 (p : Fin 8192) (q k : Fin 4096) : ridx_main_v12 (ix2 p q) k = ix2 k q :=
  funext fun a => Fin.ext (by match a with | ⟨0, _⟩ => rfl | ⟨1, _⟩ => rfl)
/-- The transposed Gram matrix at (k, q) is the Gram matrix at (q, k). -/
theorem idx11 (q k : Fin 4096) : idx_main_v11 (ix2 k q) = ix2 q k :=
  funext fun a => Fin.ext (by match a with | ⟨0, _⟩ => rfl | ⟨1, _⟩ => rfl)

/-! ## The stages, read at an index -/

/-- The Gram matrix stage at (j, k) is `∑ r, W (j, r) * W (k, r)`. -/
theorem gram_apply (x2 : (⟨S4096x64, .f32⟩ : BufTy).Contents (Elt Ideal)) (j k : Fin 4096) :
    val_main_v1 (F := Ideal) x2 (ix2 j k) = Cert.Spec.gram x2 j k := by
  rw [val_main_v1_apply]
  unfold Cert.Spec.gram
  simp only [val_main_v0_apply, lidx1, ridx1, idx0]

/-- The identity-matrix stage at (q, k) is the word comparison `Cert.Spec.kron`. -/
theorem eye_apply (q k : Fin 4096) : val_main_v7 (F := Ideal) (ix2 q k) = Cert.Spec.kron q k := by
  rw [val_main_v7_apply, val_main_v6_apply, val_main_v5_apply, val_main_v2_apply, val_main_v3_apply, val_main_v4_apply,
    val_main_c_apply]
  rfl

/-- THE REFERENCE'S RESULT is `refOut` of the arguments. -/
theorem result_eq (x0 x1 : (⟨S8192x4096, .f32⟩ : BufTy).Contents (Elt Ideal)) (x2 : (⟨S4096x64, .f32⟩ : BufTy).Contents (Elt Ideal)) :
    val_main_v13 (F := Ideal) x0 x1 x2 = Cert.Spec.refOut x0 x1 x2 := by
  funext i
  obtain ⟨p, q, rfl⟩ : ∃ (p : Fin 8192) (q : Fin 4096), i = ix2 p q := ⟨i 0, i 1, eq_ix2 i⟩
  rw [val_main_v13_apply, val_main_v10_apply, val_main_v12_apply]
  unfold Cert.Spec.refOut
  simp only [val_main_v9_apply, val_main_v8_apply, val_main_v11_apply, lidx10, ridx10, idx9, lidx12, ridx12, idx11,
    gram_apply, eye_apply, Ideal.addf_def, Ideal.subf_def]

end Cert.RefSide

end
-- ==== Proof.KernelPayload.lean ====
/-
  What the kernel's body stores, read at one entry of the 256 × 4096 block.

  The body takes a block `x0` of the source, the matching block `x1` of the target and the whole weight `x2`, forms
  the difference, multiplies it by the weight (contracting the 4096 embedding coordinates: a 256 × 64 matrix), multiplies
  that by the weight again with the weight's SECOND axis contracted (so by the transpose: a 256 × 4096 matrix), and adds
  the target's block. On the extended reals a matrix product into a zero accumulator is the plain sum over the
  contracted coordinate, so entry (y0, y1) of what is stored is
      x1 (y0, y1) + ∑ r, (∑ k, (x0 (y0, k) - x1 (y0, k)) * x2 (k, r)) * x2 (y1, r).
  For each product the four facts below say which coordinate of each operand an output coordinate or the contraction
  coordinate lands on; the sum over the one-axis contraction shape is re-indexed by its one coordinate.
-/
import proofs.«150487_j48773648613447_1_alg».proof.Proof.Gen.KernelIdeal.Skeleton
import Idealize.ShloMosaic.Lib.ValueIdx
import Idealize.ShloMosaic.PureOps.Ideal.Laws

noncomputable section

open Idealize.ShloMosaic Idealize.ShloMosaic.ValueIdx
open scoped BigOperators

namespace Cert.KernelPayload

open Cert.KernelIdeal Cert.KernelIdeal.Gen

/-! ## First product: [256, 4096] × [4096, 64], contracting the left's axis 1 with the right's axis 0 -/

theorem lhs1_0 (i : S256x64.Idx) (q : dot_S256x4096_S4096x64_S256x64_1_0_0_1_n_n.contr.Idx) :
    (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
theorem lhs1_1 (i : S256x64.Idx) (q : dot_S256x4096_S4096x64_S256x64_1_0_0_1_n_n.contr.Idx) :
    (dot_S256x4096_S4096x64_S256x64_1_0_0_1_n_n.lhsIdx i q 1).val = (q ⟨0, by decide⟩).val :=
  dot_S256x4096_S4096x64_S256x64_1_0_0_1_n_n.lhsIdx_val_of_single rfl i q
theorem rhs1_0 (i : S256x64.Idx) (q : dot_S256x4096_S4096x64_S256x64_1_0_0_1_n_n.contr.Idx) :
    (dot_S256x4096_S4096x64_S256x64_1_0_0_1_n_n.rhsIdx i q 0).val = (q ⟨0, by decide⟩).val :=
  dot_S256x4096_S4096x64_S256x64_1_0_0_1_n_n.rhsIdx_val_of_single rfl i q
theorem rhs1_1 (i : S256x64.Idx) (q : dot_S256x4096_S4096x64_S256x64_1_0_0_1_n_n.contr.Idx) :
    (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl

/-- Entry (y0, r) of the first product is the sum over the embedding coordinate. -/
theorem matmul1_apply (a : FVec Ideal S256x4096 .f32) (b : FVec Ideal S4096x64 .f32) (y0 : Fin 256) (r : Fin 64) :
    matmul (F := Ideal) dot_S256x4096_S4096x64_S256x64_1_0_0_1_n_n none a b (constant (F := Ideal) S256x64 .f32 0x00000000#32) (ix2 y0 r)
      = ∑ k : Fin 4096, a (ix2 y0 k) * b (ix2 k r) := by
  simp only [matmul]
  rw [Ideal.matmul_constant_zero_apply, ← Equiv.sum_comp (ValueIdx.contrEquiv1 dot_S256x4096_S4096x64_S256x64_1_0_0_1_n_n 4096 rfl rfl).symm]
  refine Finset.sum_congr rfl fun k _ => ?_
  have hk := ValueIdx.contrEquiv1_symm_val dot_S256x4096_S4096x64_S256x64_1_0_0_1_n_n 4096 rfl rfl k
  have el : dot_S256x4096_S4096x64_S256x64_1_0_0_1_n_n.lhsIdx (ix2 y0 r) ((ValueIdx.contrEquiv1 dot_S256x4096_S4096x64_S256x64_1_0_0_1_n_n 4096 rfl rfl).symm k) = ix2 y0 k := funext fun a => Fin.ext (by
    match a with
    | ⟨0, _⟩ => exact lhs1_0 _ _
    | ⟨1, _⟩ => exact (lhs1_1 _ _).trans hk)
  have er : dot_S256x4096_S4096x64_S256x64_1_0_0_1_n_n.rhsIdx (ix2 y0 r) ((ValueIdx.contrEquiv1 dot_S256x4096_S4096x64_S256x64_1_0_0_1_n_n 4096 rfl rfl).symm k) = ix2 k r := funext fun a => Fin.ext (by
    match a with
    | ⟨0, _⟩ => exact (rhs1_0 _ _).trans hk
    | ⟨1, _⟩ => exact rhs1_1 _ _)
  rw [el, er]

/-! ## Second product: [256, 64] × [4096, 64], contracting axis 1 of both (the right operand transposed) -/

theorem lhs2_0 (i : S256x4096.Idx) (q : dot_S256x64_S4096x64_S256x4096_1_1_0_0_n_n.contr.Idx) :
    (dot_S256x64_S4096x64_S256x4096_1_1_0_0_n_n.lhsIdx i q 0).val = (i 0).val := by
  unfold DotDims.lhsIdx
  rw [dif_neg (show ¬(0 : Fin S256x64.rank) ∈ dot_S256x64_S4096x64_S256x4096_1_1_0_0_n_n.lhsBatch by decide), dif_pos (show (0 : Fin S256x64.rank) ∈ dot_S256x64_S4096x64_S256x4096_1_1_0_0_n_n.lhsNonContracting by decide)]
  rfl
theorem lhs2_1 (i : S256x4096.Idx) (q : dot_S256x64_S4096x64_S256x4096_1_1_0_0_n_n.contr.Idx) :
    (dot_S256x64_S4096x64_S256x4096_1_1_0_0_n_n.lhsIdx i q 1).val = (q ⟨0, by decide⟩).val :=
  dot_S256x64_S4096x64_S256x4096_1_1_0_0_n_n.lhsIdx_val_of_single rfl i q
theorem rhs2_0 (i : S256x4096.Idx) (q : dot_S256x64_S4096x64_S256x4096_1_1_0_0_n_n.contr.Idx) :
    (dot_S256x64_S4096x64_S256x4096_1_1_0_0_n_n.rhsIdx i q 0).val = (i 1).val := by
  unfold DotDims.rhsIdx
  rw [dif_neg (show ¬(0 : Fin S4096x64.rank) ∈ dot_S256x64_S4096x64_S256x4096_1_1_0_0_n_n.rhsBatch by decide), dif_pos (show (0 : Fin S4096x64.rank) ∈ dot_S256x64_S4096x64_S256x4096_1_1_0_0_n_n.rhsNonContracting by decide)]
  rfl
theorem rhs2_1 (i : S256x4096.Idx) (q : dot_S256x64_S4096x64_S256x4096_1_1_0_0_n_n.contr.Idx) :
    (dot_S256x64_S4096x64_S256x4096_1_1_0_0_n_n.rhsIdx i q 1).val = (q ⟨0, by decide⟩).val :=
  dot_S256x64_S4096x64_S256x4096_1_1_0_0_n_n.rhsIdx_val_of_single rfl i q

/-- Entry (y0, y1) of the second product is the sum over the rank coordinate, the right operand read at (y1, r). -/
theorem matmul2_apply (a : FVec Ideal S256x64 .f32) (b : FVec Ideal S4096x64 .f32) (y0 : Fin 256) (y1 : Fin 4096) :
    matmul (F := Ideal) dot_S256x64_S4096x64_S256x4096_1_1_0_0_n_n none a b (constant (F := Ideal) S256x4096 .f32 0x00000000#32) (ix2 y0 y1)
      = ∑ r : Fin 64, a (ix2 y0 r) * b (ix2 y1 r) := by
  simp only [matmul]
  rw [Ideal.matmul_constant_zero_apply, ← Equiv.sum_comp (ValueIdx.contrEquiv1 dot_S256x64_S4096x64_S256x4096_1_1_0_0_n_n 64 rfl rfl).symm]
  refine Finset.sum_congr rfl fun r _ => ?_
  have hr := ValueIdx.contrEquiv1_symm_val dot_S256x64_S4096x64_S256x4096_1_1_0_0_n_n 64 rfl rfl r
  have el : dot_S256x64_S4096x64_S256x4096_1_1_0_0_n_n.lhsIdx (ix2 y0 y1) ((ValueIdx.contrEquiv1 dot_S256x64_S4096x64_S256x4096_1_1_0_0_n_n 64 rfl rfl).symm r) = ix2 y0 r := funext fun a => Fin.ext (by
    match a with
    | ⟨0, _⟩ => exact lhs2_0 _ _
    | ⟨1, _⟩ => exact (lhs2_1 _ _).trans hr)
  have er : dot_S256x64_S4096x64_S256x4096_1_1_0_0_n_n.rhsIdx (ix2 y0 y1) ((ValueIdx.contrEquiv1 dot_S256x64_S4096x64_S256x4096_1_1_0_0_n_n 64 rfl rfl).symm r) = ix2 y1 r := funext fun a => Fin.ext (by
    match a with
    | ⟨0, _⟩ => exact rhs2_0 _ _
    | ⟨1, _⟩ => exact (rhs2_1 _ _).trans hr)
  rw [el, er]

/-! ## The stored value at an entry -/

/-- Entry (y0, y1) of the stored block: the target's entry plus the difference row through the bottleneck. -/
theorem pay_apply (x0 x1 : Vec Ideal S256x4096 .f32) (x2 : Vec Ideal S4096x64 .f32) (y0 : Fin 256) (y1 : Fin 4096) :
    k0_pay1 (F := Ideal) x0 x1 x2 (ix2 y0 y1)
      = x1 (ix2 y0 y1) + ∑ r : Fin 64, (∑ k : Fin 4096, (x0 (ix2 y0 k) - x1 (ix2 y0 k)) * x2 (ix2 k r)) * x2 (ix2 y1 r) := by
  unfold k0_pay1
  show x1 (ix2 y0 y1) + matmul (F := Ideal) dot_S256x64_S4096x64_S256x4096_1_1_0_0_n_n none
      (matmul (F := Ideal) dot_S256x4096_S4096x64_S256x64_1_0_0_1_n_n none (subf x0 x1) x2 (constant (F := Ideal) S256x64 .f32 0x00000000#32)) x2
      (constant (F := Ideal) S256x4096 .f32 0x00000000#32) (ix2 y0 y1) = _
  rw [matmul2_apply]
  refine congrArg (x1 (ix2 y0 y1) + ·) (Finset.sum_congr rfl fun r _ => ?_)
  rw [matmul1_apply]
  rfl

end Cert.KernelPayload

end
-- ==== Proof.KernelBlocks.lean ====
/-
  From blocks to the array: after the kernel's run the result array is `Cert.Spec.kerOut` of the three arguments.

  The grid has 32 points; point t stages rows 256·t … 256·t + 255 of the source and of the target (all 4096 columns),
  the whole weight, and writes the same rows of the result. Entry (y0, y1) of what the body stores depends on row y0 of
  the two staged blocks and on the whole weight, so it is entry (256·t + y0, y1) of `kerOut`, a function whose entry
  (p, q) depends on row p of the source and target only: the stored block IS block t of `kerOut` of the whole arrays.
  Row p lies in the block of point p / 256, so the 32 blocks cover the result array, which therefore ends holding
  `kerOut` everywhere.
-/
import proofs.«150487_j48773648613447_1_alg».proof.Proof.Gen.KernelIdeal.Value
import proofs.«150487_j48773648613447_1_alg».proof.Proof.KernelPayload
import proofs.«150487_j48773648613447_1_alg».proof.Proof.Spec

noncomputable section

namespace Cert.KernelBlocks

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ) (ρ : Dev nD → PrngReg)

/-- The body's rectangles start at the origin of their buffers. -/
theorem origin : (![0, 0] : Fin 2 → Nat) = fun _ => 0 := funext fun a => by fin_cases a <;> rfl

/-! ## One block -/

/-- If `x0`, `x1` are rows `256·b …` of the arrays `A0`, `A1` and `x2` is the array `A2`, then entry `j` of what the
    body stores is entry `(256·b + j 0, j 1)` of `kerOut A0 A1 A2`. -/
theorem block_value (A0 A1 : Cert.Spec.Mat 8192 4096) (A2 : Cert.Spec.Mat 4096 64)
    (x0 x1 : Vec Ideal S256x4096 .f32) (x2 : Vec Ideal S4096x64 .f32) (b : Nat)
    (h0 : ∀ (y : S256x4096.Idx) (i : S8192x4096.Idx), (i 0).val = b * 256 + (y 0).val → (i 1).val = (y 1).val → x0 y = A0 i)
    (h1 : ∀ (y : S256x4096.Idx) (i : S8192x4096.Idx), (i 0).val = b * 256 + (y 0).val → (i 1).val = (y 1).val → x1 y = A1 i)
    (h2 : ∀ y : S4096x64.Idx, x2 y = A2 y)
    (j : S256x4096.Idx) (i : S8192x4096.Idx) (hi0 : (i 0).val = b * 256 + (j 0).val) (hi1 : (i 1).val = (j 1).val) :
    k0_pay1 (F := Ideal) x0 x1 x2 j = Cert.Spec.kerOut A0 A1 A2 i := by
  obtain ⟨y0, y1, rfl⟩ : ∃ (y0 : Fin 256) (y1 : Fin 4096), j = ix2 y0 y1 := ⟨j 0, j 1, eq_ix2 j⟩
  obtain ⟨p, q, rfl⟩ : ∃ (p : Fin 8192) (q : Fin 4096), i = ix2 p q := ⟨i 0, i 1, eq_ix2 i⟩
  have hq : q = y1 := Fin.ext hi1
  subst hq
  rw [Cert.KernelPayload.pay_apply]
  unfold Cert.Spec.kerOut
  rw [h1 (ix2 y0 q) (ix2 p q) hi0 rfl]
  refine congrArg (A1 (ix2 p q) + ·) (Finset.sum_congr rfl fun r _ => ?_)
  rw [h2 (ix2 q r)]
  refine congrArg (· * A2 (ix2 q r)) (Finset.sum_congr rfl fun k _ => ?_)
  rw [h0 (ix2 y0 k) (ix2 p k) hi0 rfl, h1 (ix2 y0 k) (ix2 p k) hi0 rfl, h2 (ix2 k r)]

/-! ## The index maps, decided over the 32 points -/

/-- The source's and the target's windows move with the result's along the rows and sit at column block 0; the
    weight's window never moves; the result's row block index stays below 32. -/
theorem idx_facts : ∀ t : Fin cfg0.N, win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 31 :=
  (by decide +kernel : ∀ t : Fin grid0.N, _)

/-- Every row block of the result is some point's. -/
theorem idx_onto : ∀ q0 : Fin 32, ∃ t : Fin cfg0.N, win0_3.index t = ![q0.val, 0] :=
  (by decide +kernel : ∀ q0 : Fin 32, ∃ t : Fin grid0.N, win0_3.index t = ![q0.val, 0])

/-! ## What a point writes back -/

/-- WHAT POINT `t` WRITES BACK is block `t` of `kerOut` of the argument arrays as the region finds them. -/
theorem flushed_eq (c : Dev nD) (t : Fin cfg0.N) :
    (dats m 0 c).flushed 3 t = ((cfg0.win 3).blk t).view.read (Elt Ideal)
      (Cert.Spec.kerOut (V m c main_arg0) (V m c main_arg1) (V m c main_arg2)) := by
  rw [Value.flushed3]
  unfold out0_3
  rw [View.canon_unit_zero origin]
  simp only [View.ld_unit_zero (S := S256x4096) origin, View.ld_unit_zero (S := S4096x64) origin]
  obtain ⟨e00, e01, e10, e11, e20, e21, e31, -⟩ := idx_facts t
  funext j
  show k0_pay1 (F := Ideal) (iblk m c 0 t) (iblk m c 1 t) (iblk m c 2 t) j
    = Cert.Spec.kerOut (V m c main_arg0) (V m c main_arg1) (V m c main_arg2) (((cfg0.win 3).blk t).view.emb j)
  refine block_value (V m c main_arg0) (V m c main_arg1) (V m c main_arg2) (iblk m c 0 t) (iblk m c 1 t) (iblk m c 2 t)
    (win0_3.index t (0 : Fin 2)) ?_ ?_ ?_ j (((cfg0.win 3).blk t).view.emb j) ?_ ?_
  · intro y i hi0 hi1
    show V m c main_arg0 (((cfg0.win 0).blk t).view.emb y) = V m c main_arg0 i
    have e : ((cfg0.win 0).blk t).view.emb y = i := by
      funext a; apply Fin.ext
      match a with
      | ⟨0, _⟩ => show win0_0.index t (0 : Fin 2) * 256 + 1 * (y 0).val = (i 0).val; omega
      | ⟨1, _⟩ => show win0_0.index t (1 : Fin 2) * 4096 + 1 * (y 1).val = (i 1).val; omega
    rw [e]
  · intro y i hi0 hi1
    show V m c main_arg1 (((cfg0.win 1).blk t).view.emb y) = V m c main_arg1 i
    have e : ((cfg0.win 1).blk t).view.emb y = i := by
      funext a; apply Fin.ext
      match a with
      | ⟨0, _⟩ => show win0_1.index t (0 : Fin 2) * 256 + 1 * (y 0).val = (i 0).val; omega
      | ⟨1, _⟩ => show win0_1.index t (1 : Fin 2) * 4096 + 1 * (y 1).val = (i 1).val; omega
    rw [e]
  · intro y
    show V m c main_arg2 (((cfg0.win 2).blk t).view.emb y) = V m c main_arg2 y
    have e : ((cfg0.win 2).blk t).view.emb y = y := by
      funext a; apply Fin.ext
      match a with
      | ⟨0, _⟩ => show win0_2.index t (0 : Fin 2) * 4096 + 1 * (y 0).val = (y 0).val; omega
      | ⟨1, _⟩ => show win0_2.index t (1 : Fin 2) * 64 + 1 * (y 1).val = (y 1).val; omega
    rw [e]
  · show win0_3.index t (0 : Fin 2) * 256 + 1 * (j 0).val = win0_3.index t (0 : Fin 2) * 256 + (j 0).val
    omega
  · show win0_3.index t (1 : Fin 2) * 4096 + 1 * (j 1).val = (j 1).val
    omega

/-! ## The cover -/

/-- An index of the result array is in point `t`'s block iff each coordinate is in the block's range on its axis. -/
theorem mem_blk (t : Fin cfg0.N) (i : S8192x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v0).slice (win0_3.rect t)).set ↔ _
  rw [View.set_slice_whole, Rect.mem_set_unit]
  exact Iff.rfl

/-- Row `p` of the result lies in the block of point `p / 256`: the blocks cover the array. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-! ## The array, and the run -/

/-- THE RESULT ARRAY after the run is `kerOut` of the arguments. -/
theorem final (c : Dev nD) : (dats m 0 c).arrAt 3 cfg0.N
    = Cert.Spec.kerOut (m ((c : Thread nD τ).loc main_arg0)) (m ((c : Thread nD τ).loc main_arg1)) (m ((c : Thread nD τ).loc main_arg2)) :=
  (dats m 0 c).arrAt_eq_of_cover 3 (Cert.Spec.kerOut (V m c main_arg0) (V m c main_arg1) (V m c main_arg2))
    (fun t _ => flushed_eq m c t) cover

/-- The kernel's run, with the result array named: every weakly fair execution ends with the result at `kerOut` of the
    arguments and the arguments unchanged. -/
theorem run : θ_run defs (onTc (τ := τ) (main (F := Ideal))) ⟨m, fun _ => 0, ρ⟩ fun r => ∀ c : Dev nD,
      r.2.mem ((c : Thread nD τ).loc main_v0)
        = Cert.Spec.kerOut (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelBlocks

end
-- ==== Proof.Finite.lean ====
/-
  The precondition read back: every entry of the three inputs is a real number.

  The precondition is the conjunction of three tests, one per input: every entry's absolute value is below the float
  `+∞`. The conjunction being one makes each test one; a test that reduces a whole array by `and` being one makes the
  compared bit one at every entry; and on the extended reals `max x (-x) < ⊤` leaves only the real numbers, since at
  either infinity the maximum is `⊤`.
-/
import proofs.«150487_j48773648613447_1_alg».proof.Proof.Gen.Pre_finite_inputs
import Idealize.ShloMosaic.Lib.ReduceAll
import Idealize.ShloMosaic.Lib.ValueIdx
import Idealize.ShloMosaic.Lib.Pipeline.Value
import Idealize.ShloMosaic.Lib.StableHlo.Predicate
import Idealize.ShloMosaic.PureOps.Ideal.Laws

noncomputable section

open Idealize.ShloMosaic

namespace Cert.Finite

open Cert.Pre_finite_inputs Cert.Pre_finite_inputs.Facts

/-- The rank-0 shape has one index. -/
instance : Subsingleton S_.Idx := ⟨fun a b => funext fun d => d.elim0⟩

/-- The word the tests compare against is the float `+∞`. -/
theorem inf_word : Ideal.ofBits .f32 0x7F800000#32 = (⊤ : EReal) := by simp [Ideal.ofBits, Ideal.ieee]

/-- An extended real whose absolute value tests below `+∞` is a real number. -/
theorem real_of_test (x : EReal) (h : Ideal.cmp .olt (max x (-x)) (Ideal.ofBits .f32 0x7F800000#32) = 1#1) :
    ∃ r : ℝ, x = (r : EReal) := by
  rw [inf_word] at h
  have hlt : max x (-x) < ⊤ := by
    have := (StableHlo.Predicate.ofBool_eq_one_iff _).1 h
    simpa using this
  induction x using EReal.rec
  · simp at hlt
  · exact ⟨_, rfl⟩
  · simp at hlt

/-- THE PRECONDITION gives a real number at every entry of every input. -/
theorem reals_of_pre (a0 a1 : FVec Ideal S8192x4096 .f32) (a2 : FVec Ideal S4096x64 .f32)
    (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, t2⟩ := IntOp.andi_eq_one.1 h0
  obtain ⟨t0, t1⟩ := IntOp.andi_eq_one.1 h01
  refine ⟨fun i => ?_, fun i => ?_, fun i => ?_⟩
  · exact real_of_test _ (Host.reduce_andi_all _ _ _ _ _ t0 i)
  · exact real_of_test _ (Host.reduce_andi_all _ _ _ _ _ t1 i)
  · exact real_of_test _ (Host.reduce_andi_all _ _ _ _ _ t2 i)

end Cert.Finite

end
-- ==== Proof.lean ====
/-
  The low-rank orthogonal projection, kernel against reference, on the extended reals.

  With `P = W Wᵀ` the reference computes `T (I - P)ᵀ + S Pᵀ`, materializing the 4096 × 4096 matrices; the kernel computes
  `T + ((S - T) W) Wᵀ` through the rank-64 bottleneck, 256 rows at a time. `P` is symmetric, so both are
  `T + (S - T) P`: the Kronecker rows of the identity pick `T`'s entry, and what is left is one double sum taken in two
  orders, with the product distributed over the difference. Distributivity on the extended reals needs real entries,
  which is what the precondition (every input entry finite) provides.

  The pieces: `Cert.Spec` states both results as functions of the three arrays and proves them equal on real entries
  (the algebra is `Cert.ProjectionLaw`); `Cert.RefSide` reads the reference's run as `refOut`; `Cert.KernelPayload` and
  `Cert.KernelBlocks` read the kernel's run as `kerOut` (one stored entry, then one block, then the cover of the array by
  the 32 blocks); `Cert.Finite` reads the precondition. The kernel's frames are its generated frame runs, the reference's
  frame is its generated run with the result dropped, and the idealization rewrote nothing.
-/
import proofs.«150487_j48773648613447_1_alg».proof.Defs
import proofs.«150487_j48773648613447_1_alg».proof.Proof.Gen.Kernel
import proofs.«150487_j48773648613447_1_alg».proof.Proof.Gen.Kernel.Skeleton
import proofs.«150487_j48773648613447_1_alg».proof.Proof.Gen.Kernel.Launch
import proofs.«150487_j48773648613447_1_alg».proof.Proof.Gen.Kernel.Points
import proofs.«150487_j48773648613447_1_alg».proof.Proof.Gen.Kernel.Frame
import proofs.«150487_j48773648613447_1_alg».proof.Proof.Gen.KernelIdeal
import proofs.«150487_j48773648613447_1_alg».proof.Proof.Gen.KernelIdeal.Skeleton
import proofs.«150487_j48773648613447_1_alg».proof.Proof.Gen.KernelIdeal.Launch
import proofs.«150487_j48773648613447_1_alg».proof.Proof.Gen.KernelIdeal.Points
import proofs.«150487_j48773648613447_1_alg».proof.Proof.Gen.KernelIdeal.Frame
import proofs.«150487_j48773648613447_1_alg».proof.Proof.Gen.ReferenceIdeal
import proofs.«150487_j48773648613447_1_alg».proof.Proof.Gen.Pre_finite_inputs
import proofs.«150487_j48773648613447_1_alg».proof.Proof.Gen.KernelIdeal.Value
import proofs.«150487_j48773648613447_1_alg».proof.Proof.Gen.ReferenceIdeal.Run
import proofs.«150487_j48773648613447_1_alg».proof.Proof.Gen.ReferenceIdeal.Read
import proofs.«150487_j48773648613447_1_alg».proof.Proof.Spec
import proofs.«150487_j48773648613447_1_alg».proof.Proof.RefSide
import proofs.«150487_j48773648613447_1_alg».proof.Proof.KernelBlocks
import proofs.«150487_j48773648613447_1_alg».proof.Proof.Finite
import Idealize.ShloMosaic.Adequacy
import Idealize.ShloMosaic.Init

noncomputable section

namespace Cert.Proof

open Idealize.ShloMosaic Idealize.SL.Sem

/-- The word-level kernel runs and keeps its arguments: its generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments, all of whose entries are real numbers, the kernel's result array
    ends at `kerOut` of the arguments and the reference's at `refOut` of the same arguments, which is `kerOut` of them. -/
theorem algebraic : Cert.algebraic_KernelIdeal_ReferenceIdeal := by
  intro m ρ m' ρ' hpre hagree
  refine ⟨fun c => Cert.Spec.kerOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.RefSide.result_eq, (hagree c).1, (hagree c).2.1, (hagree c).2.2]
  obtain ⟨h0, h1, h2⟩ := Cert.Finite.reals_of_pre _ _ _ (hpre c)
  exact Cert.Spec.refOut_eq_kerOut _ _ _ h0 h1 h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
